-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x256 : Shape := ⟨2, ![10000, 256]⟩
abbrev S256x256 : Shape := ⟨2, ![256, 256]⟩
abbrev S256 : Shape := ⟨1, ![256]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x10000 .f32) (main_arg1 : FVec F S10000x256 .f32) (main_arg2 : FVec F S256x256 .f32) (main_arg3 : FVec F S256 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x10000 : Shape := ⟨2, ![10000, 10000]⟩
abbrev S10000x256 : Shape := ⟨2, ![10000, 256]⟩
abbrev S256x256 : Shape := ⟨2, ![256, 256]⟩
abbrev S256 : Shape := ⟨1, ![256]⟩
abbrev S1x256 : Shape := ⟨2, ![1, 256]⟩
abbrev S400x10000 : Shape := ⟨2, ![400, 10000]⟩
abbrev S200x256 : Shape := ⟨2, ![200, 256]⟩
abbrev S200x10000 : Shape := ⟨2, ![200, 10000]⟩

abbrev nBuf : Space → Nat
  | .hbm => 6
  | .vmem => 8
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S256x256, .f32⟩
  | .local _ .vmem, ⟨4, _⟩ => ⟨S1x256, .f32⟩
  | .local _ .vmem, ⟨5, _⟩ => ⟨S200x256, .f32⟩
  | .local _ .vmem, ⟨6, _⟩ => ⟨S200x256, .f32⟩
  | .local _ .vmem, ⟨7, _⟩ => ⟨S10000x256, .bf16⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![25, 2], ![false, false]⟩

def k0_off1 (i : grid0.Coords) : Fin 2 → Nat :=
  let arg1 : BitVec 32 := BitVec.ofNat 32 (i 1).val
  let c200_i32 : BitVec 32 := 200#32
  let v5 : BitVec 32 := Scalar.muli arg1 c200_i32
  let v6 : Index := Scalar.indexCast v5
  let c0 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S200x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  h_S200x10000 : 0 < S200x10000.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S200x256_S200x256_0_0 : ∀ a, (![0, 0] : Fin 2 → Nat) a + S200x256.size a ≤ S200x256.size a
  h_S200x256 : 0 < S200x256.numel
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  hrank0 : 0 < grid0.rank
  k0_off1_inb : ∀ i : grid0.Coords, ∀ a, (k0_off1 i) a + S200x10000.size a ≤ S400x10000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x256.size a ≤ S10000x256.size a
  hwx0_4 : ∀ i : grid0.Coords, EltTy.bits .f32 = 32 ∨ (Rect.block (s := S10000x256) S200x256.size (cc0_transform_4 i) (hinb0_4 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S200x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x256 : Shape := ⟨2, ![10000, 256]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S256x256, .f32⟩
  | .hbm, ⟨3, _⟩ => ⟨S256, .f32⟩
  | .hbm, ⟨4, _⟩ => ⟨S10000x256, .f32⟩
  | .hbm, ⟨5, _⟩ => ⟨S256x256, .f32⟩
  | .hbm, ⟨6, _⟩ => ⟨S10000x256, .f32⟩
  | .hbm, ⟨7, _⟩ => ⟨S1x256, .f32⟩
  | .hbm, ⟨8, _⟩ => ⟨S10000x256, .f32⟩
  | .hbm, ⟨9, _⟩ => ⟨S10000x256, .f32⟩
  | .hbm, ⟨10, _⟩ => ⟨S_, .f32⟩
  | .hbm, ⟨11, _⟩ => ⟨S10000x256, .f32⟩
  | .hbm, ⟨12, _⟩ => ⟨S10000x256, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x10000_S10000x256_S10000x256_1_0_0_1_n_n_wf : DotDims.WF S10000x10000 S10000x256 S10000x256 [1] [0] [0] [1] [] []
  dot_S10000x256_S256x256_S10000x256_1_0_0_1_n_n_wf : DotDims.WF S10000x256 S256x256 S10000x256 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.LayerSpec.lean ====
/-
  The layer's result as one function of the four argument arrays, in the two arrangements the programs
  compute, and the law that joins them.

  For a dense `adj` (10000 × 10000), features `x` (10000 × 256), weights `W` (256 × 256, row `n` the
  weights of output feature `n`) and bias `b` (256):

    aggregate first :  out r n = max (∑ k, (∑ j, adj r j · x j k) · W n k + b n) 0
    project first   :  out r n = max (∑ j, adj r j · (∑ k, x j k · W n k) + b n) 0

  The first is `(adj · x) · Wᵀ`, the second `adj · (x · Wᵀ)`. On the reals these agree: distribute each
  product over the inner sum, exchange the two finite sums, and re-associate the triple product. On the
  extended reals distributivity fails at the infinities, so the law is stated for entries that are real
  numbers; the bias and the final maximum are the same on both sides and need nothing.
-/
import Idealize.ShloMosaic.PureOps.Ideal
import Idealize.ShloMosaic.Lib.ValueIdx

noncomputable section

open scoped BigOperators

namespace Cert.Layer

open Idealize.ShloMosaic Idealize.ShloMosaic.ValueIdx

/-- The coercion of the reals into the extended reals commutes with a finite sum. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Associativity of the matrix product, entry by entry, for real entries read in the extended reals:
    `∑ k, (∑ j, a j · x j k) · w k = ∑ j, a j · (∑ k, x j k · w k)`. -/
theorem sum_mul_sum_assoc {J K : Type*} [Fintype J] [Fintype K] (a : J → ℝ) (x : J → K → ℝ) (w : K → ℝ) :
    ∑ k, (∑ j, (a j : EReal) * (x j k : EReal)) * (w k : EReal)
      = ∑ j, (a j : EReal) * ∑ k, (x j k : EReal) * (w k : EReal) := by
  simp only [← EReal.coe_mul, ← coe_sum]
  refine congrArg _ ?_
  simp only [Finset.sum_mul, Finset.mul_sum]
  rw [Finset.sum_comm]
  refine Finset.sum_congr rfl fun j _ => Finset.sum_congr rfl fun k _ => ?_
  ring

abbrev Sadj : Shape := ⟨2, ![10000, 10000]⟩
abbrev Sx : Shape := ⟨2, ![10000, 256]⟩
abbrev Sw : Shape := ⟨2, ![256, 256]⟩
abbrev Sb : Shape := ⟨1, ![256]⟩

/-- The f32 zero word the final maximum is taken against (the same word in both programs). -/
abbrev zeroWord : EReal := Ideal.ofBits .f32 0x00000000#32

/-- Aggregate the neighbours' features first, then project: entry `(r, n)` of `relu ((adj · x) · Wᵀ + b)`. -/
def aggregateFirstAt (adj : Sadj.Idx → EReal) (x : Sx.Idx → EReal) (W : Sw.Idx → EReal) (b : Sb.Idx → EReal)
    (r : Fin 10000) (n : Fin 256) : EReal :=
  max ((∑ k : Fin 256, (∑ j : Fin 10000, adj (ix2 r j) * x (ix2 j k)) * W (ix2 n k)) + b (ix1 n)) zeroWord

/-- Project every node's features first, then aggregate: entry `(r, n)` of `relu (adj · (x · Wᵀ) + b)`. -/
def projectFirstAt (adj : Sadj.Idx → EReal) (x : Sx.Idx → EReal) (W : Sw.Idx → EReal) (b : Sb.Idx → EReal)
    (r : Fin 10000) (n : Fin 256) : EReal :=
  max ((∑ j : Fin 10000, adj (ix2 r j) * ∑ k : Fin 256, x (ix2 j k) * W (ix2 n k)) + b (ix1 n)) zeroWord

/-- The two as whole arrays. -/
def aggregateFirst (adj : Sadj.Idx → EReal) (x : Sx.Idx → EReal) (W : Sw.Idx → EReal) (b : Sb.Idx → EReal) :
    Sx.Idx → EReal := fun i => aggregateFirstAt adj x W b (i 0) (i 1)
def projectFirst (adj : Sadj.Idx → EReal) (x : Sx.Idx → EReal) (W : Sw.Idx → EReal) (b : Sb.Idx → EReal) :
    Sx.Idx → EReal := fun i => projectFirstAt adj x W b (i 0) (i 1)

/-- When every entry of `adj`, `x` and `W` is a real number the two arrangements are one array. -/
theorem projectFirst_eq_aggregateFirst (adj : Sadj.Idx → EReal) (x : Sx.Idx → EReal) (W : Sw.Idx → EReal)
    (b : Sb.Idx → EReal) (ha : ∀ i, ∃ v : ℝ, adj i = v) (hx : ∀ i, ∃ v : ℝ, x i = v) (hw : ∀ i, ∃ v : ℝ, W i = v) :
    projectFirst adj x W b = aggregateFirst adj x W b := by
  choose A hA using ha
  choose X hX using hx
  choose Wr hW using hw
  funext i
  unfold projectFirst aggregateFirst projectFirstAt aggregateFirstAt
  simp only [hA, hX, hW]
  exact congrArg (fun s => max (s + b (ix1 (i 1))) zeroWord)
    (sum_mul_sum_assoc (fun j => A (ix2 (i 0) j)) (fun j k => X (ix2 j k)) (fun k => Wr (ix2 (i 1) k))).symm

end Cert.Layer

end
-- ==== Proof.ReferenceValue.lean ====
/-
  The reference's result, read index by index, is the "aggregate first" arrangement of the layer:
  the host's first product contracts `adj`'s columns against `x`'s rows, the transpose turns `W` so that
  the second product contracts the aggregated features against row `n` of `W`, the two broadcasts copy
  `b n` down every row, and the final maximum is taken against the zero word.
-/
import proofs.«120774_g4724464025767_cont_8to1c4_784_18_alg».proof.Proof.Gen.ReferenceIdeal.Read
import proofs.«120774_g4724464025767_cont_8to1c4_784_18_alg».proof.Proof.LayerSpec

noncomputable section

open scoped BigOperators

namespace Cert.Layer.Reference

open Idealize.ShloMosaic Idealize.ShloMosaic.ValueIdx Cert.ReferenceIdeal Cert.ReferenceIdeal.Read

/-- The reference's last stage is `aggregateFirst` of its four arguments. -/
theorem stage_eq (x0 : S10000x10000.Idx → EReal) (x1 : S10000x256.Idx → EReal) (x2 : S256x256.Idx → EReal)
    (x3 : S256.Idx → EReal) :
    val_main_v6 (F := Ideal) x0 x1 x2 x3 = aggregateFirst x0 x1 x2 x3 := by
  funext i
  rw [val_main_v6_apply, val_main_v5_apply, val_main_v2_apply, val_main_v4_apply, val_main_v3_apply,
    val_main_call0_v0_apply, val_main_call0_cst_apply]
  simp only [val_main_v0_apply, val_main_v1_apply]
  show max ((∑ k : Fin 256, (∑ j : Fin 10000, x0 (lidx_main_v0 (lidx_main_v2 i k) j) * x1 (ridx_main_v0 (lidx_main_v2 i k) j))
      * x2 (idx_main_v1 (ridx_main_v2 i k))) + x3 (idx_main_v3 (idx_main_v4 i))) (Ideal.ofBits .f32 0x00000000#32)
    = aggregateFirstAt x0 x1 x2 x3 (i 0) (i 1)
  unfold aggregateFirstAt
  refine congrArg₂ max (congrArg₂ (· + ·) (Finset.sum_congr rfl fun k _ => congrArg₂ (· * ·)
    (Finset.sum_congr rfl fun j _ => congrArg₂ (· * ·) (congrArg x0 ?_) (congrArg x1 ?_)) (congrArg x2 ?_))
    (congrArg x3 ?_)) rfl
  · funext a; match a with | ⟨0, _⟩ => rfl | ⟨1, _⟩ => rfl
  · funext a; match a with | ⟨0, _⟩ => rfl | ⟨1, _⟩ => rfl
  · funext a; match a with | ⟨0, _⟩ => rfl | ⟨1, _⟩ => rfl
  · funext a; match a with | ⟨0, _⟩ => rfl

end Cert.Layer.Reference

end
-- ==== Proof.KernelPieces.lean ====
/-
  What one grid point's body leaves behind, as values of the blocks it loaded.

  The body has two cases. At the grid's first point it first computes the projected features
  `y = x · Wᵀ` from the whole `x` and `W` blocks and stores them into the scratch buffer (one store that
  covers the buffer), then reads the scratch back; at every other point the scratch is only read. In both
  cases the output block is one covering store of `max (rows · y + b, 0)`, where `rows` are the 200 rows of
  the staged 400-row block of `adj` that start at row `200 · (second grid coordinate)`.

  So: the first case leaves `y` in the scratch, and an output block computed from that same `y`; the other
  case leaves the scratch as it found it, and an output block computed from what it found.
-/
import proofs.«120774_g4724464025767_cont_8to1c4_784_18_alg».proof.Proof.Gen.KernelIdeal.Frame
import Idealize.ShloMosaic.Lib.Pipeline.Value
import Idealize.ShloMosaic.Lib.Tactic

set_option maxRecDepth 16384

noncomputable section

namespace Cert.Layer.Kernel

open Cert.KernelIdeal Cert.KernelIdeal.Gen
open Idealize.ShloMosaic Idealize.ShloMosaic.TcCoe Idealize.SL.Sem Idealize.ShloMosaic.Tactic

variable {F : FTy → Type} [FloatOps F]

theorem zeroOffsets : (![0, 0] : Fin 2 → Nat) = fun _ => 0 := funext fun a => by fin_cases a <;> rfl

/-- The 200 rows of a staged 400-row block of `adj` that a point multiplies: those starting at the row offset
    the body computes from the second grid coordinate. -/
abbrev rowsOf (i : grid0.Coords) (x0 : Vec F S400x10000 .f32) : Vec F S200x10000 .f32 :=
  View.ld x0 (Rect.unit (s := S400x10000) (k0_off1 i) S200x10000.size (k0_off1_inb i))

/-- First point: the scratch ends holding the projected features of the loaded `x` and `W` blocks. -/
theorem scratch_first (c : Dev nD) (i : grid0.Coords) (a2 : Memref sig .tc .vmem S400x10000 .f32) (h2 : a2.IsWhole) (a3 : Memref sig .tc .vmem S10000x256 .f32) (h3 : a3.IsWhole) (a4 : Memref sig .tc .vmem S256x256 .f32) (h4 : a4.IsWhole) (a5 : Memref sig .tc .vmem S1x256 .f32) (h5 : a5.IsWhole) (a6 : Memref sig .tc .vmem S200x256 .f32) (h6 : a6.IsWhole) (a7 : Memref sig .tc .vmem S10000x256 .bf16) (h7 : a7.IsWhole) (hc : cond0_0 i)
    (x0 : Vec F S400x10000 .f32) (x1 : Vec F S10000x256 .f32) (x2 : Vec F S256x256 .f32) (x3 : Vec F S1x256 .f32) :
    sout0_A_0 c i a2 h2 a3 h3 a4 h4 a5 h5 a6 h6 a7 h7 hc x0 x1 x2 x3 = k0_pay1 x1 x2 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero zeroOffsets]
  simp only [View.readAt_eq_ld, h3.read_unread, h4.read_unread, View.ld_unit_zero (S := S10000x256) zeroOffsets,
    View.ld_unit_zero (S := S256x256) zeroOffsets]

/-- First point: the output block is computed from the projected features just stored (the scratch is read back
    after the store that covers it). -/
theorem out_first (c : Dev nD) (i : grid0.Coords) (a2 : Memref sig .tc .vmem S400x10000 .f32) (h2 : a2.IsWhole) (a3 : Memref sig .tc .vmem S10000x256 .f32) (h3 : a3.IsWhole) (a4 : Memref sig .tc .vmem S256x256 .f32) (h4 : a4.IsWhole) (a5 : Memref sig .tc .vmem S1x256 .f32) (h5 : a5.IsWhole) (a6 : Memref sig .tc .vmem S200x256 .f32) (h6 : a6.IsWhole) (a7 : Memref sig .tc .vmem S10000x256 .bf16) (h7 : a7.IsWhole) (hc : cond0_0 i)
    (x0 : Vec F S400x10000 .f32) (x1 : Vec F S10000x256 .f32) (x2 : Vec F S256x256 .f32) (x3 : Vec F S1x256 .f32) :
    out0_A_4 c i a2 h2 a3 h3 a4 h4 a5 h5 a6 h6 a7 h7 hc x0 x1 x2 x3 = k0_pay2 (rowsOf i x0) (k0_pay1 x1 x2) x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero zeroOffsets]
  simp only [View.readAt_eq_ld, h2.read_unread, h3.read_unread, h4.read_unread, h5.read_unread,
    View.readCov_unit_zero (S := S10000x256) _ zeroOffsets, View.ld_unit_zero (S := S10000x256) zeroOffsets,
    View.ld_unit_zero (S := S256x256) zeroOffsets, View.ld_unit_zero (S := S1x256) zeroOffsets]
  rfl

/-- Every other point: the output block is computed from whatever the scratch held on entry. -/
theorem out_later (c : Dev nD) (i : grid0.Coords) (a2 : Memref sig .tc .vmem S400x10000 .f32) (h2 : a2.IsWhole) (a3 : Memref sig .tc .vmem S10000x256 .f32) (h3 : a3.IsWhole) (a4 : Memref sig .tc .vmem S256x256 .f32) (h4 : a4.IsWhole) (a5 : Memref sig .tc .vmem S1x256 .f32) (h5 : a5.IsWhole) (a6 : Memref sig .tc .vmem S200x256 .f32) (h6 : a6.IsWhole) (a7 : Memref sig .tc .vmem S10000x256 .bf16) (h7 : a7.IsWhole) (hc : ¬cond0_0 i)
    (x0 : Vec F S400x10000 .f32) (x1 : Vec F S10000x256 .f32) (x2 : Vec F S256x256 .f32) (x3 : Vec F S1x256 .f32) (xs : Vec F S10000x256 .bf16) :
    out0_B_4 c i a2 h2 a3 h3 a4 h4 a5 h5 a6 h6 a7 h7 hc x0 x1 x2 x3 xs = k0_pay2 (rowsOf i x0) xs x3 := by
  unfold out0_B_4
  rw [View.read_writes_eq_canon _ _ _ (cover0_B_4 c i a2 h2 a3 h3 a4 h4 a5 h5 a6 h6 a7 h7 hc x0 x1 x2 x3 xs)]
  unfold kernelRun0_B
  dsimp only
  rw [View.canon_unit_zero zeroOffsets]
  simp only [View.readAt_eq_ld, h2.read_unread, h7.read_unread, h5.read_unread,
    View.ld_unit_zero (S := S10000x256) zeroOffsets, View.ld_unit_zero (S := S1x256) zeroOffsets]

end Cert.Layer.Kernel

end
-- ==== Proof.KernelPayload.lean ====
/-
  The body's two payloads read at one index, at the ideal instance (every format change the identity,
  a matrix product into the zero accumulator the plain sum of products over the contracted axis).

    projected features :  y j n   = ∑ k, x j k · W n k          (the transpose turns W so that the product
                                                                  contracts x's columns against row n of W)
    output block       :  o p q   = max (∑ j, rows p j · y j q + bias 0 q, 0)

  and, composed, an output entry is the "project first" arrangement of the layer at the array row the block's
  row `p` comes from.
-/
import proofs.«120774_g4724464025767_cont_8to1c4_784_18_alg».proof.Proof.Gen.KernelIdeal.Skeleton
import proofs.«120774_g4724464025767_cont_8to1c4_784_18_alg».proof.Proof.LayerSpec
import Idealize.ShloMosaic.Lib.Pipeline.Value
import Idealize.ShloMosaic.Lib.ValueIdx
import Idealize.ShloMosaic.PureOps.Ideal.Laws

noncomputable section

open scoped BigOperators

namespace Cert.Layer.Kernel

open Cert.KernelIdeal Cert.KernelIdeal.Gen
open Idealize.ShloMosaic Idealize.ShloMosaic.ValueIdx

/-! ## The operand indices of the two products, axis by axis -/

theorem proj_lhs_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem proj_lhs_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem proj_rhs_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem proj_rhs_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

theorem agg_lhs_0 (i : S200x256.Idx) (q : dot_S200x10000_S10000x256_S200x256_1_0_0_1_n_n.contr.Idx) :
    (dot_S200x10000_S10000x256_S200x256_1_0_0_1_n_n.lhsIdx i q 0).val = (i 0).val := by
  unfold DotDims.lhsIdx
  rw [dif_neg (show ¬(0 : Fin S200x10000.rank) ∈ dot_S200x10000_S10000x256_S200x256_1_0_0_1_n_n.lhsBatch by decide), dif_pos (show (0 : Fin S200x10000.rank) ∈ dot_S200x10000_S10000x256_S200x256_1_0_0_1_n_n.lhsNonContracting by decide)]
  rfl
theorem agg_lhs_1 (i : S200x256.Idx) (q : dot_S200x10000_S10000x256_S200x256_1_0_0_1_n_n.contr.Idx) :
    (dot_S200x10000_S10000x256_S200x256_1_0_0_1_n_n.lhsIdx i q 1).val = (q ⟨0, by decide⟩).val :=
  dot_S200x10000_S10000x256_S200x256_1_0_0_1_n_n.lhsIdx_val_of_single rfl i q
theorem agg_rhs_0 (i : S200x256.Idx) (q : dot_S200x10000_S10000x256_S200x256_1_0_0_1_n_n.contr.Idx) :
    (dot_S200x10000_S10000x256_S200x256_1_0_0_1_n_n.rhsIdx i q 0).val = (q ⟨0, by decide⟩).val :=
  dot_S200x10000_S10000x256_S200x256_1_0_0_1_n_n.rhsIdx_val_of_single rfl i q
theorem agg_rhs_1 (i : S200x256.Idx) (q : dot_S200x10000_S10000x256_S200x256_1_0_0_1_n_n.contr.Idx) :
    (dot_S200x10000_S10000x256_S200x256_1_0_0_1_n_n.rhsIdx i q 1).val = (i 1).val := by
  unfold DotDims.rhsIdx
  rw [dif_neg (show ¬(1 : Fin S10000x256.rank) ∈ dot_S200x10000_S10000x256_S200x256_1_0_0_1_n_n.rhsBatch by decide), dif_pos (show (1 : Fin S10000x256.rank) ∈ dot_S200x10000_S10000x256_S200x256_1_0_0_1_n_n.rhsNonContracting by decide)]
  rfl

/-- The projected features at `(j, n)`: row `j` of `x` against row `n` of `W`. -/
theorem projected_apply (v18 : Vec Ideal S10000x256 .f32) (v20 : Vec Ideal S256x256 .f32) (j : Fin 10000) (n : Fin 256) :
    k0_pay1 (F := Ideal) v18 v20 (ix2 j n) = ∑ k : Fin 256, v18 (ix2 j k) * v20 (ix2 n k) := by
  unfold k0_pay1
  simp only [shapeCast_self, truncf_apply, matmul]
  rw [Ideal.matmul_constant_zero_apply, ← Equiv.sum_comp (contrEquiv1 dot_S10000x256_S256x256_S10000x256_1_0_0_1_n_n 256 rfl rfl).symm]
  refine Finset.sum_congr rfl fun k _ => ?_
  have hk := contrEquiv1_symm_val dot_S10000x256_S256x256_S10000x256_1_0_0_1_n_n 256 rfl rfl k
  have el : dot_S10000x256_S256x256_S10000x256_1_0_0_1_n_n.lhsIdx (ix2 j n) ((contrEquiv1 dot_S10000x256_S256x256_S10000x256_1_0_0_1_n_n 256 rfl rfl).symm k) = ix2 j k := funext fun a => Fin.ext (by
    match a with
    | ⟨0, _⟩ => exact proj_lhs_0 _ _
    | ⟨1, _⟩ => exact (proj_lhs_1 _ _).trans hk)
  have er : dot_S10000x256_S256x256_S10000x256_1_0_0_1_n_n.rhsIdx (ix2 j n) ((contrEquiv1 dot_S10000x256_S256x256_S10000x256_1_0_0_1_n_n 256 rfl rfl).symm k) = ix2 k n := funext fun a => Fin.ext (by
    match a with
    | ⟨0, _⟩ => exact (proj_rhs_0 _ _).trans hk
    | ⟨1, _⟩ => exact proj_rhs_1 _ _)
  rw [el, er]
  refine congrArg₂ (· * ·) rfl ?_
  exact transpose_apply [1, 0] _ transposes_S256x256_p1_0_S256x256 (ix2 k n) (ix2 n k) (fun b => match b with
    | ⟨0, _⟩ => rfl
    | ⟨1, _⟩ => rfl)

/-- An output block's entry `(p, q)`: row `p` of the multiplied rows against column `q` of the projected features,
    plus the bias row's entry `q`, cut off below at zero. -/
theorem fused_apply (v7 : Vec Ideal S200x10000 .f32) (v9 : Vec Ideal S10000x256 .bf16) (v11 : Vec Ideal S1x256 .f32)
    (p : Fin 200) (q : Fin 256) :
    k0_pay2 (F := Ideal) v7 v9 v11 (ix2 p q)
      = max ((∑ j : Fin 10000, v7 (ix2 p j) * v9 (ix2 j q)) + v11 (ix2 (0 : Fin 1) q)) zeroWord := by
  unfold k0_pay2
  simp only [maximumf_apply, addf_apply, broadcast_apply, shapeCast_self, matmul]
  refine congrArg₂ max (congrArg₂ (· + ·) ?_ ?_) rfl
  · rw [Ideal.matmul_constant_zero_apply, ← Equiv.sum_comp (contrEquiv1 dot_S200x10000_S10000x256_S200x256_1_0_0_1_n_n 10000 rfl rfl).symm]
    refine Finset.sum_congr rfl fun j _ => ?_
    have hk := contrEquiv1_symm_val dot_S200x10000_S10000x256_S200x256_1_0_0_1_n_n 10000 rfl rfl j
    have el : dot_S200x10000_S10000x256_S200x256_1_0_0_1_n_n.lhsIdx (ix2 p q) ((contrEquiv1 dot_S200x10000_S10000x256_S200x256_1_0_0_1_n_n 10000 rfl rfl).symm j) = ix2 p j := funext fun a => Fin.ext (by
      match a with
      | ⟨0, _⟩ => exact agg_lhs_0 _ _
      | ⟨1, _⟩ => exact (agg_lhs_1 _ _).trans hk)
    have er : dot_S200x10000_S10000x256_S200x256_1_0_0_1_n_n.rhsIdx (ix2 p q) ((contrEquiv1 dot_S200x10000_S10000x256_S200x256_1_0_0_1_n_n 10000 rfl rfl).symm j) = ix2 j q := funext fun a => Fin.ext (by
      match a with
      | ⟨0, _⟩ => exact (agg_rhs_0 _ _).trans hk
      | ⟨1, _⟩ => exact agg_rhs_1 _ _)
    rw [el, er]
    rfl
  · exact broadcastTo_apply v11 broadcasts_S1x256_S200x256 (ix2 p q) (ix2 (0 : Fin 1) q) (fun a => match a with
      | ⟨0, _⟩ => by show (0 : ℕ) = if (1 : Nat) = 1 then 0 else _; rw [if_pos rfl]
      | ⟨1, _⟩ => by show q.val = if (256 : Nat) = 1 then 0 else q.val; rw [if_neg (by decide)])

/-- Composed: when the multiplied rows are row `r` of `adj` and the bias row's entry `q` is `b q`, the output
    block's entry `(p, q)`, computed from the projected features of `x` and `W`, is the layer's entry `(r, q)`
    in the "project first" arrangement. -/
theorem entry_eq (A : Sadj.Idx → EReal) (X : Vec Ideal S10000x256 .f32) (W : Vec Ideal S256x256 .f32) (B : Sb.Idx → EReal)
    (v7 : Vec Ideal S200x10000 .f32) (v11 : Vec Ideal S1x256 .f32) (r : Fin 10000) (p : Fin 200) (q : Fin 256)
    (h7 : ∀ j : Fin 10000, v7 (ix2 p j) = A (ix2 r j)) (h11 : v11 (ix2 (0 : Fin 1) q) = B (ix1 q)) :
    k0_pay2 (F := Ideal) v7 (k0_pay1 (F := Ideal) X W) v11 (ix2 p q) = projectFirstAt A X W B r q := by
  rw [fused_apply, h11]
  unfold projectFirstAt
  refine congrArg (fun s => max (s + B (ix1 q)) zeroWord) (Finset.sum_congr rfl fun j _ => ?_)
  rw [h7 j, projected_apply]

end Cert.Layer.Kernel

end
-- ==== Proof.KernelValue.lean ====
/-
  The kernel's result array, read off the generated run.

  The grid has 25 × 2 points, numbered `t = 2·i + j` in row-major order. Point `t` stages rows
  `400·i … 400·i + 399` of `adj` and multiplies the 200 of them that start at row `200·j` inside that block,
  that is rows `200·t … 200·t + 199` of `adj`; it writes output block `t`, rows `200·t … 200·t + 199` of the
  result. The windows of `x`, `W` and the bias row are the whole arrays at every point.

  The scratch buffer is written once, at point 0, with the projected features `y = x · Wᵀ`, and never again, so
  by induction on the point it holds `y` after every point. Hence every point's output block is
  `max (rows · y + b, 0)` for its own rows, which is the block of the "project first" arrangement of the layer;
  the fifty blocks are disjoint and tile the 10000 rows, so the array ends holding that arrangement.
-/
import proofs.«120774_g4724464025767_cont_8to1c4_784_18_alg».proof.Proof.Gen.KernelIdeal.Value
import proofs.«120774_g4724464025767_cont_8to1c4_784_18_alg».proof.Proof.KernelPieces
import proofs.«120774_g4724464025767_cont_8to1c4_784_18_alg».proof.Proof.KernelPayload
import Idealize.ShloMosaic.Lib.StableHlo.Run

set_option maxRecDepth 16384

noncomputable section

open scoped BigOperators

namespace Cert.Layer.Kernel

open Cert.KernelIdeal Cert.KernelIdeal.Gen
open Idealize.ShloMosaic Idealize.ShloMosaic.TcCoe Idealize.SL.Sem Idealize.ShloMosaic.ValueIdx
open Idealize.ShloMosaic.Pipeline (Dat)

/-- The index maps and the body's row offset, decided once over the fifty points: window 0 is at block row
    `t / 2`, windows 1 to 3 stay at block (0, 0), the output window is at block row `t`, and the rows the body
    multiplies start at `200 · (t mod 2)` inside the staged block. -/
theorem grid_facts : ∀ t : Fin cfg0.N,
    win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ k0_off1 (grid0.coords t) (0 : Fin 2) = 200 * (t.val % 2) ∧ k0_off1 (grid0.coords t) (1 : Fin 2) = 0 :=
  (by decide +kernel : ∀ t : Fin grid0.N, _)

section AnyInstance

variable {F : FTy → Type} [FloatOps F]
variable (m : (ℓ : Loc nD τ sig) → Buf (Elt F) ℓ)

/-- The window of `x` is the whole array at every point. -/
theorem iblk_feats (c : Dev nD) (t : Fin cfg0.N) : (iblk m c 1 t : Vec F S10000x256 .f32) = V m c main_arg1 := by
  obtain ⟨-, -, e0, e1, -⟩ := grid_facts t
  funext y
  unfold iblk
  rw [View.read_apply]
  show V m c main_arg1 _ = V m c main_arg1 y
  refine congrArg _ (funext fun a => Fin.ext ?_)
  match a with
  | ⟨0, _⟩ => show win0_1.index t (0 : Fin 2) * 10000 + 1 * (y 0).val = (y 0).val; rw [e0]; omega
  | ⟨1, _⟩ => show win0_1.index t (1 : Fin 2) * 256 + 1 * (y 1).val = (y 1).val; rw [e1]; omega

/-- The window of `W` is the whole array at every point. -/
theorem iblk_wts (c : Dev nD) (t : Fin cfg0.N) : (iblk m c 2 t : Vec F S256x256 .f32) = V m c main_arg2 := by
  obtain ⟨-, -, -, -, e0, e1, -⟩ := grid_facts t
  funext y
  unfold iblk
  rw [View.read_apply]
  show V m c main_arg2 _ = V m c main_arg2 y
  refine congrArg _ (funext fun a => Fin.ext ?_)
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

/-- The window of the bias row is the whole one-row array at every point. -/
theorem iblk_bias (c : Dev nD) (t : Fin cfg0.N) : (iblk m c 3 t : Vec F S1x256 .f32) = V m c main_v0 := by
  obtain ⟨-, -, -, -, -, -, e0, e1, -⟩ := grid_facts t
  funext y
  unfold iblk
  rw [View.read_apply]
  show V m c main_v0 _ = V m c main_v0 y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

/-- The rows point `t` multiplies are rows `200·t + p` of `adj`. -/
theorem rows_apply (c : Dev nD) (t : Fin cfg0.N) (p : Fin 200) (j : Fin 10000) (hr : 200 * t.val + p.val < 10000) :
    rowsOf (grid0.coords t) (iblk m c 0 t) (ix2 p j) = V m c main_arg0 (ix2 (⟨200 * t.val + p.val, hr⟩ : Fin 10000) j) := by
  obtain ⟨e0, e1, -, -, -, -, -, -, -, -, o0, o1⟩ := grid_facts t
  show iblk m c 0 t ((Rect.unit (s := S400x10000) (k0_off1 (grid0.coords t)) S200x10000.size (k0_off1_inb (grid0.coords t))).idx (ix2 p j)) = _
  unfold iblk
  rw [View.read_apply]
  show V m c main_arg0 _ = V m c main_arg0 _
  refine congrArg _ (funext fun a => Fin.ext ?_)
  match a with
  | ⟨0, _⟩ =>
    show win0_0.index t (0 : Fin 2) * 400 + 1 * (k0_off1 (grid0.coords t) (0 : Fin 2) + 1 * p.val) = 200 * t.val + p.val
    rw [e0, o0]; omega
  | ⟨1, _⟩ =>
    show win0_0.index t (1 : Fin 2) * 10000 + 1 * (k0_off1 (grid0.coords t) (1 : Fin 2) + 1 * j.val) = j.val
    rw [e1, o1]; omega

/-- The projected features of the arrays as the region finds them. -/
abbrev projected (c : Dev nD) : Vec F S10000x256 .bf16 := k0_pay1 (V m c main_arg1) (V m c main_arg2)

/-- After every point the scratch holds the projected features: stored at point 0, untouched afterwards. -/
theorem scratch_after (c : Dev nD) : ∀ (n : ℕ) (hn : n < cfg0.N), (outsAt0 m c n hn).2 = projected m c
  | 0, hn => by
    rw [outsAt0_A m c ⟨0, hn⟩ rfl]
    dsimp only
    exact (scratch_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩)).trans
      (congrArg₂ k0_pay1 (iblk_feats m c ⟨0, hn⟩) (iblk_wts m c ⟨0, hn⟩))
  | n + 1, hn => by
    have hN : cfg0.N = 50 := N_0
    have hB : ¬(⟨n + 1, hn⟩ : Fin cfg0.N).val % 50 = 0 := by dsimp only; omega
    rw [outsAt0_B m c ⟨n + 1, hn⟩ hB]
    dsimp only
    unfold sout0_B_0
    exact scratch_after c n _

/-- So every point's output block is computed from the projected features, its own rows of `adj` and the bias row. -/
theorem out_after (c : Dev nD) (t : Fin cfg0.N) :
    (outsAt0 m c t.val t.isLt).1 = k0_pay2 (rowsOf (grid0.coords t) (iblk m c 0 t)) (projected m c) (V m c main_v0) := by
  by_cases h0 : t.val % 50 = 0
  · rw [outsAt0_A m c t h0]
    dsimp only
    exact (out_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans
      (congrArg₂ (fun y b => k0_pay2 (rowsOf (grid0.coords t) (iblk m c 0 t)) y b)
        (congrArg₂ k0_pay1 (iblk_feats m c t) (iblk_wts m c t)) (iblk_bias m c t))
  · rw [outsAt0_B m c t h0]
    dsimp only
    exact (out_later c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2).trans
      (congrArg₂ (fun y b => k0_pay2 (rowsOf (grid0.coords t) (iblk m c 0 t)) y b)
        (scratch_after m c (t.val - 1) _) (iblk_bias m c t))

end AnyInstance

section AtIdeal

variable (m : (ℓ : Loc nD τ sig) → Buf (Elt Ideal) ℓ) (ρ : Dev nD → PrngReg)

/-- The bias row the region finds is the host's reshape of `b` to one row: its entry `(0, q)` is `b q`. -/
theorem bias_apply (c : Dev nD) (q : Fin 256) :
    (V m c main_v0 : S1x256.Idx → EReal) (ix2 (0 : Fin 1) q) = m ((c : Thread nD τ).loc main_arg3) (ix1 q) := by
  have e : (V m c main_v0 : S1x256.Idx → EReal)
      = shapeCast S1x256 (m ((c : Thread nD τ).loc main_arg3)) shapeCasts_S256_S1x256 := by
    dsimp only [Gen.V, Gen.hostOps0]; after_results; rfl
  rw [e]
  refine shapeCast_apply _ shapeCasts_S256_S1x256 (ix2 (0 : Fin 1) q) (ix1 q) ?_
  rw [Shape.rowMajor_val_one, Shape.rowMajor_val_two]
  show q.val = 0 * 256 + q.val
  omega

/-- The layer of the four arguments' launch contents, in the "project first" arrangement. -/
abbrev result (c : Dev nD) : Buf (Elt Ideal) ((c : Thread nD τ).loc main_v1) :=
  projectFirst (m ((c : Thread nD τ).loc main_arg0)) (m ((c : Thread nD τ).loc main_arg1))
    (m ((c : Thread nD τ).loc main_arg2)) (m ((c : Thread nD τ).loc main_arg3))

/-- What point `t` writes back is block `t` of that array: rows `200·t … 200·t + 199`. -/
theorem flushed_eq (c : Dev nD) (t : Fin cfg0.N) :
    (dats m 0 c).flushed 4 t = ((cfg0.win 4).blk t).view.read (Elt Ideal) (result m c) := by
  obtain ⟨-, -, -, -, -, -, -, -, e0, e1, -⟩ := grid_facts t
  have hN : t.val < 50 := lt_of_lt_of_eq t.isLt (show cfg0.N = 50 from N_0)
  rw [Cert.KernelIdeal.Value.flushed4, out_after]
  funext y
  obtain ⟨p, q, rfl⟩ : ∃ (p : Fin 200) (q : Fin 256), y = ix2 p q := ⟨y 0, y 1, eq_ix2 y⟩
  have hr : 200 * t.val + p.val < 10000 := by have := p.isLt; omega
  have hi : ((cfg0.win 4).blk t).view.emb (ix2 p q) = ix2 (⟨200 * t.val + p.val, hr⟩ : Fin 10000) q :=
    funext fun a => Fin.ext (by
      match a with
      | ⟨0, _⟩ => show win0_4.index t (0 : Fin 2) * 200 + 1 * p.val = 200 * t.val + p.val; rw [e0]; omega
      | ⟨1, _⟩ => show win0_4.index t (1 : Fin 2) * 256 + 1 * q.val = q.val; rw [e1]; omega)
  show k0_pay2 (F := Ideal) (rowsOf (grid0.coords t) (iblk m c 0 t)) (projected m c) (V m c main_v0) (ix2 p q)
    = result m c (((cfg0.win 4).blk t).view.emb (ix2 p q))
  rw [hi]
  refine (entry_eq (m ((c : Thread nD τ).loc main_arg0)) (V m c main_arg1) (V m c main_arg2)
    (m ((c : Thread nD τ).loc main_arg3)) _ _ (⟨200 * t.val + p.val, hr⟩ : Fin 10000) p q (fun j => ?_) (bias_apply m c q)).trans ?_
  · rw [rows_apply m c t p j hr, V_main_arg0]
  · rw [V_main_arg1, V_main_arg2]
    rfl

/-- An index of the result array is in point `t`'s block iff each coordinate is in the block's range on its axis. -/
theorem mem_blk (t : Fin cfg0.N) (i : S10000x256.Idx) :
    i ∈ ((cfg0.win 4).blk t).view.set ↔ ∀ a : Fin 2, win0_4.index t a * S200x256.size a ≤ (i a).val
      ∧ (i a).val < win0_4.index t a * S200x256.size a + S200x256.size a := by
  show i ∈ ((View.whole main_v1).slice (win0_4.rect t)).set ↔ _
  rw [View.set_slice_whole, Rect.mem_set_unit]
  exact Iff.rfl

/-- Row `r` of the result is in the block of point `r / 200`, so the fifty blocks cover the array and it ends
    holding the layer. -/
theorem final (c : Dev nD) : (dats m 0 c).arrAt 4 cfg0.N = result m c :=
  (dats m 0 c).arrAt_eq_of_cover 4 (result m c) (fun t _ => flushed_eq m c t) fun i => by
    have hN : cfg0.N = 50 := N_0
    have hi0 : (i 0).val < 10000 := (i 0).isLt
    have hi1 : (i 1).val < 256 := (i 1).isLt
    obtain ⟨t, ht⟩ : ∃ t : Fin cfg0.N, t.val = (i 0).val / 200 := ⟨⟨(i 0).val / 200, by rw [hN]; omega⟩, rfl⟩
    obtain ⟨-, -, -, -, -, -, -, -, e0, e1, -⟩ := grid_facts t
    refine ⟨t, flush0_4 t, ?_⟩
    rw [mem_blk]
    intro a
    match a with
    | ⟨0, _⟩ =>
      show win0_4.index t (0 : Fin 2) * 200 ≤ (i 0).val ∧ (i 0).val < win0_4.index t (0 : Fin 2) * 200 + 200
      rw [e0, ht]; omega
    | ⟨1, _⟩ =>
      show win0_4.index t (1 : Fin 2) * 256 ≤ (i 1).val ∧ (i 1).val < win0_4.index t (1 : Fin 2) * 256 + 256
      rw [e1]; omega

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end AtIdeal

end Cert.Layer.Kernel

end
-- ==== Proof.FiniteInputs.lean ====
/-
  From the precondition to real entries. The precondition says, of each of the four arrays, that the
  conjunction over all its entries of `|entry| < +∞` is true. Taking the conjunctions apart entry by entry:
  an extended real whose absolute value is strictly below `+∞` is neither infinity, so it is a real number.
-/
import proofs.«120774_g4724464025767_cont_8to1c4_784_18_alg».proof.Proof.Gen.Pre_finite_inputs
import Idealize.ShloMosaic.Lib.ReduceAll
import Idealize.ShloMosaic.Lib.ValueIdx
import Idealize.ShloMosaic.PureOps.Ideal

noncomputable section

namespace Cert.Layer.Finite

open Idealize.ShloMosaic Cert.Pre_finite_inputs

instance : Subsingleton S_.Idx := ⟨fun a b => funext fun d => d.elim0⟩

/-- An extended real whose absolute value is strictly below the f32 infinity word's value is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ v : ℝ, x = v := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- One array: if the conjunction over all entries of `|entry| < +∞` is true, every entry is a real number. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant S_ .f32 0x7F800000#32)))
      (constantI S_ 1 1#1) hr hu ValueIdx.ix0 = 1#1) (i : s.Idx) : ∃ v : ℝ, a i = v :=
  real_of_abs_lt_inf (a i) (Host.reduce_andi_all _ _ hr hu _ h i)

/-- All four arrays at once, from the printed precondition being true. -/
theorem reals_of_pre (a0 : FVec Ideal S10000x10000 .f32) (a1 : FVec Ideal S10000x256 .f32) (a2 : FVec Ideal S256x256 .f32)
    (a3 : FVec Ideal S256 .f32) (h : fn (F := Ideal) a0 a1 a2 a3 = fun _ => 1#1) :
    (∀ i, ∃ v : ℝ, a0 i = v) ∧ (∀ i, ∃ v : ℝ, a1 i = v) ∧ (∀ i, ∃ v : ℝ, a2 i = v) ∧ (∀ i, ∃ v : ℝ, a3 i = v) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real a0 _ _ _ h0', all_real a1 _ _ _ h1, all_real a2 _ _ _ h2, all_real a3 _ _ _ h3⟩

end Cert.Layer.Finite

end
-- ==== Proof.lean ====
/-
  One graph-convolution layer, `relu (adj · x · Wᵀ + b)`, computed two ways.

  The reference aggregates first: `(adj · x) · Wᵀ`. The kernel projects first: it computes `y = x · Wᵀ` once,
  at the first grid point, keeps it in a scratch buffer, and at every grid point multiplies 200 rows of `adj`
  by `y`, adds the bias and cuts off below at zero. Read at the ideal instance both are exact sums of
  products, and the changes of float format in the kernel are the identity.

  The two arrangements are joined by associativity of the matrix product,
      ∑ j, adj r j · (∑ k, x j k · W n k) = ∑ k, (∑ j, adj r j · x j k) · W n k,
  which distributes products over sums and so holds for real entries but not at the infinities of the
  extended reals: this is where the precondition (every input entry finite) is used. The bias and the final
  maximum against zero are the same on both sides.

  Pieces: the two arrangements and the law (LayerSpec); the reference read index by index (ReferenceValue);
  what one grid point's body leaves, and the body's arithmetic at an index (KernelPieces, KernelPayload); the
  scratch invariant, each point's block and the cover of the result array by the fifty blocks (KernelValue);
  real entries from the precondition (FiniteInputs).
-/
import proofs.«120774_g4724464025767_cont_8to1c4_784_18_alg».proof.Defs
import proofs.«120774_g4724464025767_cont_8to1c4_784_18_alg».proof.Proof.Gen.Kernel
import proofs.«120774_g4724464025767_cont_8to1c4_784_18_alg».proof.Proof.Gen.Kernel.Skeleton
import proofs.«120774_g4724464025767_cont_8to1c4_784_18_alg».proof.Proof.Gen.Kernel.Launch
import proofs.«120774_g4724464025767_cont_8to1c4_784_18_alg».proof.Proof.Gen.Kernel.Points
import proofs.«120774_g4724464025767_cont_8to1c4_784_18_alg».proof.Proof.Gen.Kernel.Frame
import proofs.«120774_g4724464025767_cont_8to1c4_784_18_alg».proof.Proof.Gen.KernelIdeal
import proofs.«120774_g4724464025767_cont_8to1c4_784_18_alg».proof.Proof.Gen.KernelIdeal.Skeleton
import proofs.«120774_g4724464025767_cont_8to1c4_784_18_alg».proof.Proof.Gen.KernelIdeal.Launch
import proofs.«120774_g4724464025767_cont_8to1c4_784_18_alg».proof.Proof.Gen.KernelIdeal.Points
import proofs.«120774_g4724464025767_cont_8to1c4_784_18_alg».proof.Proof.Gen.KernelIdeal.Frame
import proofs.«120774_g4724464025767_cont_8to1c4_784_18_alg».proof.Proof.Gen.ReferenceIdeal
import proofs.«120774_g4724464025767_cont_8to1c4_784_18_alg».proof.Proof.Gen.Pre_finite_inputs
import proofs.«120774_g4724464025767_cont_8to1c4_784_18_alg».proof.Proof.Gen.KernelIdeal.Value
import proofs.«120774_g4724464025767_cont_8to1c4_784_18_alg».proof.Proof.Gen.ReferenceIdeal.Run
import proofs.«120774_g4724464025767_cont_8to1c4_784_18_alg».proof.Proof.Gen.ReferenceIdeal.Read
import proofs.«120774_g4724464025767_cont_8to1c4_784_18_alg».proof.Proof.LayerSpec
import proofs.«120774_g4724464025767_cont_8to1c4_784_18_alg».proof.Proof.ReferenceValue
import proofs.«120774_g4724464025767_cont_8to1c4_784_18_alg».proof.Proof.KernelValue
import proofs.«120774_g4724464025767_cont_8to1c4_784_18_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arguments, the kernel ends at the "project first" arrangement and the
    reference at the "aggregate first" one of the same arrays; the arrays' entries are real numbers by the
    precondition, so the two are one array. -/
theorem algebraic : Cert.algebraic_KernelIdeal_ReferenceIdeal := by
  intro m ρ m' ρ' hpre hagree
  refine ⟨fun c => Cert.Layer.Kernel.result m c, Cert.Layer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Layer.Reference.stage_eq, (hagree c).1, (hagree c).2.1,
    (hagree c).2.2.1, (hagree c).2.2.2]
  obtain ⟨ha, hx, hw, -⟩ := Cert.Layer.Finite.reals_of_pre _ _ _ _ (hpre c)
  exact (Cert.Layer.projectFirst_eq_aggregateFirst _ _ _ _ ha hx hw).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
